-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S64 .f32) (main_arg6 : FVec F S64 .f32) (main_arg7 : FVec F S64 .f32) (main_arg8 : FVec F S64x40 .f32) (main_arg9 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64 .f32) (main_arg7 : FVec F S64 .f32) (main_arg8 : FVec F S64x40 .f32) (main_arg9 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S5000x64 : Shape := ⟨2, ![5000, 64]⟩
abbrev S5000x40 : Shape := ⟨2, ![5000, 40]⟩

abbrev nBuf : Space → Nat
  | .hbm => 89
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x40, .f32⟩
  | .hbm, ⟨88, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x40, .f32⟩
  | .local _ .vmem, ⟨9, _⟩ => ⟨S1x40, .f32⟩
  | .local _ .vmem, ⟨10, _⟩ => ⟨S5000x40, .f32⟩
  | .local _ .vmem, ⟨11, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S40_S1x40 : S40.ShapeCasts S1x40
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x40.size a ≤ S64x40.size a
  hwx0_7 : ∀ i : grid0.Coords, EltTy.bits .f32 = 32 ∨ (Rect.block (s := S64x40) S64x40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x40.size a ≤ S100000x40.size a
  hwx0_9 : ∀ i : grid0.Coords, EltTy.bits .f32 = 32 ∨ (Rect.block (s := S100000x40) S5000x40.size (cc0_transform_9 i) (hinb0_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v55) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v61) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v62) S5000x40.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S100000x40, .f32⟩
  | .hbm, ⟨106, _⟩ => ⟨S1x40, .f32⟩
  | .hbm, ⟨107, _⟩ => ⟨S100000x40, .f32⟩
  | .hbm, ⟨108, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call1_cst : Ref sig .tc := ⟨.hbm, 102, rfl⟩
abbrev main_call1_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.DenseSpec.lean ====
/-
  The dense tail of the network, as one function of whole arrays over the extended reals.

  For a matrix h of M rows and 64 columns, a 64×64 weight W1 with bias b1, the per-feature batch-normalisation
  parameters g (scale), be (shift), mu (running mean), va (running variance), and a 64×40 weight W2 with bias b2:

    hidden r k = max ( g k · ((Σ_j h(r,j) · W1(j,k) + b1 k) − mu k) · rsqrt (va k + ε) + be k ) 0
    dense (r,c) = Σ_k hidden r k · W2(k,c) + b2 c

  with ε the single-precision word nearest 1e-5, the same word on both sides, never evaluated. Row r of the result
  depends on row r of h only, so a block of rows of h gives the same block of rows of the result: that is why a
  kernel tiled over the rows and one whole-array computation agree.
-/
import Idealize.ShloMosaic.PureOps.Ideal
import Idealize.ShloMosaic.PureOps.Ideal.Laws
import Idealize.ShloMosaic.Lib.ValueIdx
import Idealize.ShloMosaic.Lib.Pipeline.Value

noncomputable section

namespace SgcDense

open Idealize.ShloMosaic Idealize.ShloMosaic.ValueIdx

/-- Hidden unit k of row r: the first linear layer, normalised, shifted and clamped below at zero. -/
def hidden {M : ℕ} (h : (⟨2, ![M, 64]⟩ : Shape).Idx → EReal) (W1 : (⟨2, ![64, 64]⟩ : Shape).Idx → EReal)
    (b1 g be mu va : Fin 64 → EReal) (r : Fin M) (k : Fin 64) : EReal :=
  max (g k * (((∑ j : Fin 64, h (ix2 r j) * W1 (ix2 j k)) + b1 k) - mu k)
        * Ideal.rsqrt (va k + Ideal.ofBits .f32 0x3727C5AC#32) + be k) (Ideal.ofBits .f32 0x00000000#32)

/-- Entry (r, c) of the output: the second linear layer applied to row r of the hidden layer. -/
def dense {M : ℕ} (h : (⟨2, ![M, 64]⟩ : Shape).Idx → EReal) (W1 : (⟨2, ![64, 64]⟩ : Shape).Idx → EReal)
    (b1 g be mu va : Fin 64 → EReal) (W2 : (⟨2, ![64, 40]⟩ : Shape).Idx → EReal) (b2 : Fin 40 → EReal) :
    (⟨2, ![M, 40]⟩ : Shape).Idx → EReal :=
  fun i => (∑ k : Fin 64, hidden h W1 b1 g be mu va (i 0) k * W2 (ix2 k (i 1))) + b2 (i 1)

theorem dense_apply {M : ℕ} (h : (⟨2, ![M, 64]⟩ : Shape).Idx → EReal) (W1 : (⟨2, ![64, 64]⟩ : Shape).Idx → EReal)
    (b1 g be mu va : Fin 64 → EReal) (W2 : (⟨2, ![64, 40]⟩ : Shape).Idx → EReal) (b2 : Fin 40 → EReal)
    (r : Fin M) (c : Fin 40) :
    dense h W1 b1 g be mu va W2 b2 (ix2 r c)
      = (∑ k : Fin 64, hidden h W1 b1 g be mu va r k * W2 (ix2 k c)) + b2 c := rfl

/-- The hidden layer of a row depends on that row of h only. -/
theorem hidden_row {M M' : ℕ} (h : (⟨2, ![M, 64]⟩ : Shape).Idx → EReal) (h' : (⟨2, ![M', 64]⟩ : Shape).Idx → EReal)
    (W1 : (⟨2, ![64, 64]⟩ : Shape).Idx → EReal) (b1 g be mu va : Fin 64 → EReal) (r : Fin M) (r' : Fin M')
    (hrow : ∀ j : Fin 64, h (ix2 r j) = h' (ix2 r' j)) (k : Fin 64) :
    hidden h W1 b1 g be mu va r k = hidden h' W1 b1 g be mu va r' k := by
  unfold hidden
  simp only [hrow]

/-- So does the output row: a block of rows of h yields the same block of rows of the output. -/
theorem dense_row {M M' : ℕ} (h : (⟨2, ![M, 64]⟩ : Shape).Idx → EReal) (h' : (⟨2, ![M', 64]⟩ : Shape).Idx → EReal)
    (W1 : (⟨2, ![64, 64]⟩ : Shape).Idx → EReal) (b1 g be mu va : Fin 64 → EReal)
    (W2 : (⟨2, ![64, 40]⟩ : Shape).Idx → EReal) (b2 : Fin 40 → EReal) (r : Fin M) (r' : Fin M')
    (hrow : ∀ j : Fin 64, h (ix2 r j) = h' (ix2 r' j)) (c : Fin 40) :
    dense h W1 b1 g be mu va W2 b2 (ix2 r c) = dense h' W1 b1 g be mu va W2 b2 (ix2 r' c) := by
  rw [dense_apply, dense_apply]
  simp only [hidden_row h h' W1 b1 g be mu va r r' hrow]

/-- A 1×C array read as a function of its column. -/
abbrev rowOf {α : Type} {C : ℕ} (x : (⟨2, ![1, C]⟩ : Shape).Idx → α) : Fin C → α := fun k => x (ix2 0 k)

/-- A length-C vector read as a function of its coordinate. -/
abbrev vecOf {α : Type} {C : ℕ} (x : (⟨1, ![C]⟩ : Shape).Idx → α) : Fin C → α := fun k => x (ix1 k)

/-- A 1×C row broadcast down N rows, read at (p, k), is the row's entry k (C is not 1: the axis is not a unit one). -/
theorem broadcast_row_apply {α : Type} {N C : ℕ} (hC : C ≠ 1) (x : (⟨2, ![1, C]⟩ : Shape).Idx → α)
    (hb : (⟨2, ![1, C]⟩ : Shape).Broadcasts ⟨2, ![N, C]⟩) (p : Fin N) (k : Fin C) :
    broadcastTo (⟨2, ![N, C]⟩ : Shape) x hb (ix2 p k) = x (ix2 0 k) :=
  broadcastTo_apply x hb (ix2 p k) (ix2 0 k) (fun a => match a with
    | ⟨0, _⟩ => by show 0 = if (1 : Nat) = 1 then 0 else p.val; rw [if_pos rfl]
    | ⟨1, _⟩ => by show k.val = if C = 1 then 0 else k.val; rw [if_neg hC])

end SgcDense

end
-- ==== Proof.RefDense.lean ====
/-
  The reference's dense tail, read index by index: after the propagation (kept whole, as the array `val_main_v55`),
  the host computes  h·W1 + b1,  normalises it feature by feature,  clamps it at zero,  and applies  ·W2 + b2.
  Each of those host operations reads one element of each operand (a broadcast of a vector down the rows reads the
  vector at the column), and each matrix product is a sum over the contracted coordinate, so entry (r, c) of the
  result is `SgcDense.dense` of the propagated array and the parameters.
-/
import proofs.«107091_j4501125726313_1_alg».proof.Proof.RefReadP
import proofs.«107091_j4501125726313_1_alg».proof.Proof.DenseSpec

noncomputable section

namespace Cert.ReferenceIdeal.RefDense

open Cert.ReferenceIdeal Cert.ReferenceIdeal.ReadP Idealize.ShloMosaic Idealize.ShloMosaic.ValueIdx SgcDense

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 x4 x5 x6 x7 : (⟨S64, .f32⟩ : BufTy).Contents (Elt Ideal))
  (x8 : (⟨S64x40, .f32⟩ : BufTy).Contents (Elt Ideal)) (x9 : (⟨S40, .f32⟩ : BufTy).Contents (Elt Ideal))

/-- The clamped, normalised first layer at (r, k) is `hidden` of the propagated array: x3 is the bias, x4 the scale,
    x5 the shift, x6 the running mean, x7 the running variance. -/
theorem hidden_eq (r : Fin 100000) (k : Fin 64) :
    val_main_v75 (F := Ideal) x0 x1 x2 x3 x4 x5 x6 x7 (ix2 r k)
      = hidden (val_main_v55 (F := Ideal) x0 x1) x2 (vecOf x3) (vecOf x4) (vecOf x5) (vecOf x6) (vecOf x7) r k := by
  -- the first product contracts the columns of row r with the rows of column k
  have el : ∀ j : Fin 64, lidx_main_v56 (ix2 r k) j = ix2 r j := fun j => funext fun a => Fin.ext (by
    match a with | ⟨0, _⟩ => rfl | ⟨1, _⟩ => rfl)
  have er : ∀ j : Fin 64, ridx_main_v56 (ix2 r k) j = ix2 j k := fun j => funext fun a => Fin.ext (by
    match a with | ⟨0, _⟩ => rfl | ⟨1, _⟩ => rfl)
  -- every per-feature vector, broadcast to a row and then down the rows, is read at the column k
  have e3 : idx_main_v57 (idx_main_v58 (ix2 r k)) = ix1 k := funext fun a => Fin.ext (by match a with | ⟨0, _⟩ => rfl)
  have e6 : idx_main_v60 (idx_main_v61 (ix2 r k)) = ix1 k := funext fun a => Fin.ext (by match a with | ⟨0, _⟩ => rfl)
  have e4 : idx_main_v63 (idx_main_v64 (ix2 r k)) = ix1 k := funext fun a => Fin.ext (by match a with | ⟨0, _⟩ => rfl)
  have e7 : idx_main_v69 (idx_main_v70 (ix2 r k)) = ix1 k := funext fun a => Fin.ext (by match a with | ⟨0, _⟩ => rfl)
  have e5 : idx_main_v72 (idx_main_v73 (ix2 r k)) = ix1 k := funext fun a => Fin.ext (by match a with | ⟨0, _⟩ => rfl)
  rw [val_main_v75_apply, val_main_v74_apply, val_main_v71_apply, val_main_v65_apply, val_main_v62_apply,
    val_main_v59_apply, val_main_v56_apply, val_main_v58_apply, val_main_v57_apply, val_main_v61_apply,
    val_main_v60_apply, val_main_v64_apply, val_main_v63_apply, val_main_v70_apply, val_main_v69_apply,
    val_main_v68_apply, val_main_v67_apply, val_main_v66_apply, val_main_cst_12_apply, val_main_v73_apply,
    val_main_v72_apply, val_main_call1_v0_apply, val_main_call1_cst_apply]
  simp only [el, er, e3, e4, e5, e6, e7]
  rfl

/-- The reference's result is `dense` of the propagated array and the parameters. -/
theorem result_eq :
    val_main_v79 (F := Ideal) x0 x1 x2 x3 x4 x5 x6 x7 x8 x9
      = dense (val_main_v55 (F := Ideal) x0 x1) x2 (vecOf x3) (vecOf x4) (vecOf x5) (vecOf x6) (vecOf x7) x8 (vecOf x9) := by
  funext i
  obtain ⟨r, c, rfl⟩ : ∃ (r : Fin 100000) (c : Fin 40), i = ix2 r c := ⟨i 0, i 1, eq_ix2 i⟩
  have el : ∀ k : Fin 64, lidx_main_v76 (ix2 r c) k = ix2 r k := fun k => funext fun a => Fin.ext (by
    match a with | ⟨0, _⟩ => rfl | ⟨1, _⟩ => rfl)
  have er : ∀ k : Fin 64, ridx_main_v76 (ix2 r c) k = ix2 k c := fun k => funext fun a => Fin.ext (by
    match a with | ⟨0, _⟩ => rfl | ⟨1, _⟩ => rfl)
  have e9 : idx_main_v77 (idx_main_v78 (ix2 r c)) = ix1 c := funext fun a => Fin.ext (by match a with | ⟨0, _⟩ => rfl)
  rw [dense_apply, val_main_v79_apply, val_main_v76_apply, val_main_v78_apply, val_main_v77_apply]
  simp only [el, er, e9, hidden_eq]
  rfl

end Cert.ReferenceIdeal.RefDense

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.KernelTile.lean ====
/-
  One tile of the kernel, as arithmetic: the body loads a block of 5000 rows of the propagated array together with the
  whole parameter arrays (each per-feature vector as a 1×64 row, the last bias as a 1×40 row), and stores

    relu( g · ((tile · W1 + b1) − mu) · rsqrt(va + ε) + be ) · W2 + b2 .

  The two products accumulate into zero, so each is the textbook sum over the contracted coordinate; the narrowing of
  the products' operands changes nothing on the extended reals; a row broadcast down the tile is read at the column.
  Hence entry (p, q) of what the body stores is `SgcDense.dense` of the tile and the parameters.
-/
import proofs.«107091_j4501125726313_1_alg».proof.Proof.Gen.KernelIdeal.Skeleton
import proofs.«107091_j4501125726313_1_alg».proof.Proof.DenseSpec
import proofs.«107091_j4501125726313_1_alg».proof.Proof.LibPlainMatmul

noncomputable section

namespace Cert.KernelIdeal.Tile

open Cert.KernelIdeal Cert.KernelIdeal.Gen Idealize.ShloMosaic Idealize.ShloMosaic.ValueIdx SgcDense

variable (x0 : FVec Ideal S5000x64 .f32) (x1 : FVec Ideal S64x64 .f32) (x2 x3 x4 x5 x6 : FVec Ideal S1x64 .f32)
  (x7 : FVec Ideal S64x40 .f32) (x8 : FVec Ideal S1x40 .f32)

/-- The first layer of a tile: tile · W1, both operands narrowed, accumulated into zero. -/
def lin1 : FVec Ideal S5000x64 .f32 :=
  matmul (F := Ideal) dot_S5000x64_S64x64_S5000x64_1_0_0_1_n_n none
    (truncf (F := Ideal) .bf16 (shapeCast S5000x64 x0 shapeCasts_S5000x64_S5000x64) bitsLt_bf16_f32)
    (truncf (F := Ideal) .bf16 x1 bitsLt_bf16_f32) (constant (F := Ideal) S5000x64 .f32 0x00000000#32)

/-- At (p, k): row p of the tile against column k of W1. -/
theorem lin1_apply (p : Fin 5000) (k : Fin 64) : lin1 x0 x1 (ix2 p k) = ∑ j : Fin 64, x0 (ix2 p j) * x1 (ix2 j k) := by
  unfold lin1
  rw [shapeCast_self]
  exact Idealize.ShloMosaic.LibPlainMatmul.matmul_plain_zero_apply none _ _ p k

/-- A parameter row, recast to its own shape and broadcast down the tile. -/
def rowDown (x : FVec Ideal S1x64 .f32) : FVec Ideal S5000x64 .f32 :=
  broadcastTo S5000x64 (shapeCast S1x64 x shapeCasts_S1x64_S1x64) broadcasts_S1x64_S5000x64

/-- At (p, k): the row's entry k. -/
theorem rowDown_apply (x : FVec Ideal S1x64 .f32) (p : Fin 5000) (k : Fin 64) : rowDown x (ix2 p k) = x (ix2 0 k) := by
  unfold rowDown
  rw [shapeCast_self]
  exact broadcast_row_apply (by decide) x _ p k

/-- The reciprocal square root of the variance row shifted by ε, broadcast down the tile. -/
def rsqrtDown : FVec Ideal S5000x64 .f32 :=
  broadcastTo S5000x64 (rsqrt (F := Ideal) (addf (F := Ideal) (shapeCast S1x64 x6 shapeCasts_S1x64_S1x64)
    (broadcast S1x64 (Scalar.ofBits (F := Ideal) .f32 0x3727C5AC#32)))) broadcasts_S1x64_S5000x64

theorem rsqrtDown_apply (p : Fin 5000) (k : Fin 64) :
    rsqrtDown x6 (ix2 p k) = Ideal.rsqrt (x6 (ix2 0 k) + Ideal.ofBits .f32 0x3727C5AC#32) := by
  unfold rsqrtDown
  rw [shapeCast_self]
  exact broadcast_row_apply (by decide) _ _ p k

/-- The tile's hidden layer as a vector: normalised, shifted, clamped at zero. -/
def hiddenVec : FVec Ideal S5000x64 .f32 :=
  maximumf (F := Ideal)
    (addf (F := Ideal)
      (mulf (F := Ideal) (mulf (F := Ideal) (rowDown x3) (subf (F := Ideal) (addf (F := Ideal) (lin1 x0 x1) (rowDown x2)) (rowDown x5)))
        (rsqrtDown x6))
      (rowDown x4))
    (broadcast S5000x64 (Scalar.ofBits (F := Ideal) .f32 0x00000000#32))

/-- At (p, k) it is `hidden` of the tile: x2 the bias, x3 the scale, x4 the shift, x5 the mean, x6 the variance. -/
theorem hiddenVec_apply (p : Fin 5000) (k : Fin 64) :
    hiddenVec x0 x1 x2 x3 x4 x5 x6 (ix2 p k) = hidden x0 x1 (rowOf x2) (rowOf x3) (rowOf x4) (rowOf x5) (rowOf x6) p k := by
  unfold hiddenVec
  rw [maximumf_apply, addf_apply, mulf_apply, mulf_apply, subf_apply, addf_apply, rowDown_apply, rowDown_apply,
    rowDown_apply, rowDown_apply, lin1_apply, rsqrtDown_apply]
  rfl

/-- The body's second product is the hidden layer (narrowed) against W2 (narrowed), accumulated into zero: the body's
    operations, in order, with the names above for its stretches. -/
theorem pay3_eq :
    k0_pay3 (F := Ideal) x0 x1 x2 x3 x4 x5 x6 x7
      = matmul (F := Ideal) dot_S5000x64_S64x40_S5000x40_1_0_0_1_n_n none
          (truncf (F := Ideal) .bf16 (hiddenVec x0 x1 x2 x3 x4 x5 x6) bitsLt_bf16_f32)
          (truncf (F := Ideal) .bf16 x7 bitsLt_bf16_f32) (constant (F := Ideal) S5000x40 .f32 0x00000000#32) := rfl

/-- The second product of a tile, at (p, q): row p of the tile's hidden layer against column q of W2. -/
theorem pay3_apply (p : Fin 5000) (q : Fin 40) :
    k0_pay3 (F := Ideal) x0 x1 x2 x3 x4 x5 x6 x7 (ix2 p q)
      = ∑ k : Fin 64, hidden x0 x1 (rowOf x2) (rowOf x3) (rowOf x4) (rowOf x5) (rowOf x6) p k * x7 (ix2 k q) := by
  rw [pay3_eq]
  refine (Idealize.ShloMosaic.LibPlainMatmul.matmul_plain_zero_apply none _ _ p q).trans ?_
  refine Finset.sum_congr rfl fun k _ => ?_
  rw [← hiddenVec_apply]
  rfl

/-- The stored value is the second product plus the last bias row broadcast down the tile. -/
theorem store_eq :
    k0_pay1 (F := Ideal) (k0_pay2 x8) (k0_pay3 x0 x1 x2 x3 x4 x5 x6 x7)
      = addf (F := Ideal) (k0_pay3 x0 x1 x2 x3 x4 x5 x6 x7)
          (broadcastTo S5000x40 (shapeCast S1x40 x8 shapeCasts_S1x40_S1x40) broadcasts_S1x40_S5000x40) := rfl

/-- What the body stores, at (p, q): `dense` of the tile. -/
theorem store_apply (p : Fin 5000) (q : Fin 40) :
    k0_pay1 (F := Ideal) (k0_pay2 x8) (k0_pay3 x0 x1 x2 x3 x4 x5 x6 x7) (ix2 p q)
      = dense x0 x1 (rowOf x2) (rowOf x3) (rowOf x4) (rowOf x5) (rowOf x6) x7 (rowOf x8) (ix2 p q) := by
  rw [store_eq, addf_apply, dense_apply, pay3_apply, shapeCast_self, broadcast_row_apply (by decide) x8 _ p q]

end Cert.KernelIdeal.Tile

end
-- ==== Proof.KernelWhole.lean ====
/-
  From tiles to the whole output array. The grid has 20 points; point t stages rows 5000·t … 5000·t + 4999 of the
  propagated array (all 64 columns) and the whole of every parameter array, and writes back rows 5000·t … 5000·t + 4999
  of the output (all 40 columns). Since a row of `SgcDense.dense` depends on the same row of its first argument only,
  what point t writes back is block t of `dense` of the WHOLE arrays; the 20 blocks tile the 100000 rows, so after the
  run the output array is `dense` of the arrays the region found.
-/
import proofs.«107091_j4501125726313_1_alg».proof.Proof.Gen.KernelIdeal.Value
import proofs.«107091_j4501125726313_1_alg».proof.Proof.KernelTile

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx SgcDense
open Idealize.ShloMosaic.Pipeline (Dat)

variable (m : (ℓ : Loc nD τ sig) → Buf (Elt Ideal) ℓ) (ρ : Dev nD → PrngReg)

/-! ## The arrays the region finds, and the blocks a point stages, by their literal types -/

/-- The propagated features (the result of the two hops). -/
abbrev hArr (c : Dev nD) : Vec Ideal S100000x64 .f32 := V m c main_v55
abbrev w1Arr (c : Dev nD) : Vec Ideal S64x64 .f32 := V m c main_arg2
abbrev b1Row (c : Dev nD) : Vec Ideal S1x64 .f32 := V m c main_v56
abbrev gRow (c : Dev nD) : Vec Ideal S1x64 .f32 := V m c main_v57
abbrev beRow (c : Dev nD) : Vec Ideal S1x64 .f32 := V m c main_v58
abbrev muRow (c : Dev nD) : Vec Ideal S1x64 .f32 := V m c main_v59
abbrev vaRow (c : Dev nD) : Vec Ideal S1x64 .f32 := V m c main_v60
abbrev w2Arr (c : Dev nD) : Vec Ideal S64x40 .f32 := V m c main_arg8
abbrev b2Row (c : Dev nD) : Vec Ideal S1x40 .f32 := V m c main_v61

/-- The output the kernel computes: the dense tail of the whole arrays. -/
abbrev out (c : Dev nD) : Vec Ideal S100000x40 .f32 :=
  dense (hArr m c) (w1Arr m c) (rowOf (b1Row m c)) (rowOf (gRow m c)) (rowOf (beRow m c)) (rowOf (muRow m c))
    (rowOf (vaRow m c)) (w2Arr m c) (rowOf (b2Row m c))

abbrev blk0 (c : Dev nD) (t : Fin cfg0.N) : Vec Ideal S5000x64 .f32 := iblk m c 0 t
abbrev blk1 (c : Dev nD) (t : Fin cfg0.N) : Vec Ideal S64x64 .f32 := iblk m c 1 t
abbrev blk2 (c : Dev nD) (t : Fin cfg0.N) : Vec Ideal S1x64 .f32 := iblk m c 2 t
abbrev blk3 (c : Dev nD) (t : Fin cfg0.N) : Vec Ideal S1x64 .f32 := iblk m c 3 t
abbrev blk4 (c : Dev nD) (t : Fin cfg0.N) : Vec Ideal S1x64 .f32 := iblk m c 4 t
abbrev blk5 (c : Dev nD) (t : Fin cfg0.N) : Vec Ideal S1x64 .f32 := iblk m c 5 t
abbrev blk6 (c : Dev nD) (t : Fin cfg0.N) : Vec Ideal S1x64 .f32 := iblk m c 6 t
abbrev blk7 (c : Dev nD) (t : Fin cfg0.N) : Vec Ideal S64x40 .f32 := iblk m c 7 t
abbrev blk8 (c : Dev nD) (t : Fin cfg0.N) : Vec Ideal S1x40 .f32 := iblk m c 8 t

theorem origin : (![0, 0] : Fin 2 → Nat) = fun _ => 0 := funext fun a => by fin_cases a <;> rfl

/-! ## The index maps over the grid -/

/-- Decided over the 20 points: the row tile and the output tile move together along the rows and sit at column block
    0; every parameter window stays at block (0, 0); the output's row block index is below 20. -/
theorem index_facts : ∀ t : Fin cfg0.N,
    win0_0.index t (0 : Fin 2) = win0_9.index t (0 : Fin 2) ∧ win0_0.index t (1 : Fin 2) = 0
    ∧ win0_9.index t (1 : Fin 2) = 0 ∧ win0_9.index t (0 : Fin 2) ≤ 19
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every one of the 20 row blocks of the output is some point's. -/
theorem index_onto : ∀ b : Fin 20, ∃ t : Fin cfg0.N, win0_9.index t = ![b.val, 0] :=
  (by decide +kernel : ∀ b : Fin 20, ∃ t : Fin grid0.N, win0_9.index t = ![b.val, 0])

/-! ## A parameter window's block is its whole array

Stated for an arbitrary array of the window's shape: the block index is (0, 0) at every point and the block has the
array's extents, so reading the array through the block reads it whole. -/

theorem whole_block1 (X : Vec Ideal S64x64 .f32) (t : Fin cfg0.N) : ((cfg0.win 1).blk t).view.read (Elt Ideal) X = X := by
  obtain ⟨-, -, -, -, e0, e1, -⟩ := index_facts t
  funext y
  show X (((cfg0.win 1).blk t).view.emb y) = X y
  congr 1; funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem blk1_eq (c : Dev nD) (t : Fin cfg0.N) : blk1 m c t = w1Arr m c := whole_block1 (w1Arr m c) t

theorem whole_block2 (X : Vec Ideal S1x64 .f32) (t : Fin cfg0.N) : ((cfg0.win 2).blk t).view.read (Elt Ideal) X = X := by
  obtain ⟨-, -, -, -, -, -, e0, e1, -⟩ := index_facts t
  funext y
  show X (((cfg0.win 2).blk t).view.emb y) = X y
  congr 1; funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem blk2_eq (c : Dev nD) (t : Fin cfg0.N) : blk2 m c t = b1Row m c := whole_block2 (b1Row m c) t

theorem whole_block3 (X : Vec Ideal S1x64 .f32) (t : Fin cfg0.N) : ((cfg0.win 3).blk t).view.read (Elt Ideal) X = X := by
  obtain ⟨-, -, -, -, -, -, -, -, e0, e1, -⟩ := index_facts t
  funext y
  show X (((cfg0.win 3).blk t).view.emb y) = X y
  congr 1; funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blk3_eq (c : Dev nD) (t : Fin cfg0.N) : blk3 m c t = gRow m c := whole_block3 (gRow m c) t

theorem whole_block4 (X : Vec Ideal S1x64 .f32) (t : Fin cfg0.N) : ((cfg0.win 4).blk t).view.read (Elt Ideal) X = X := by
  obtain ⟨-, -, -, -, -, -, -, -, -, -, e0, e1, -⟩ := index_facts t
  funext y
  show X (((cfg0.win 4).blk t).view.emb y) = X y
  congr 1; funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem blk4_eq (c : Dev nD) (t : Fin cfg0.N) : blk4 m c t = beRow m c := whole_block4 (beRow m c) t

theorem whole_block5 (X : Vec Ideal S1x64 .f32) (t : Fin cfg0.N) : ((cfg0.win 5).blk t).view.read (Elt Ideal) X = X := by
  obtain ⟨-, -, -, -, -, -, -, -, -, -, -, -, e0, e1, -⟩ := index_facts t
  funext y
  show X (((cfg0.win 5).blk t).view.emb y) = X y
  congr 1; funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem blk5_eq (c : Dev nD) (t : Fin cfg0.N) : blk5 m c t = muRow m c := whole_block5 (muRow m c) t

theorem whole_block6 (X : Vec Ideal S1x64 .f32) (t : Fin cfg0.N) : ((cfg0.win 6).blk t).view.read (Elt Ideal) X = X := by
  obtain ⟨-, -, -, -, -, -, -, -, -, -, -, -, -, -, e0, e1, -⟩ := index_facts t
  funext y
  show X (((cfg0.win 6).blk t).view.emb y) = X y
  congr 1; funext a; apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem blk6_eq (c : Dev nD) (t : Fin cfg0.N) : blk6 m c t = vaRow m c := whole_block6 (vaRow m c) t

theorem whole_block7 (X : Vec Ideal S64x40 .f32) (t : Fin cfg0.N) : ((cfg0.win 7).blk t).view.read (Elt Ideal) X = X := by
  obtain ⟨-, -, -, -, -, -, -, -, -, -, -, -, -, -, -, -, e0, e1, -⟩ := index_facts t
  funext y
  show X (((cfg0.win 7).blk t).view.emb y) = X y
  congr 1; funext a; apply Fin.ext
  match a with
  | ⟨0, _⟩ => show win0_7.index t (0 : Fin 2) * 64 + 1 * (y 0).val = (y 0).val; omega
  | ⟨1, _⟩ => show win0_7.index t (1 : Fin 2) * 40 + 1 * (y 1).val = (y 1).val; omega

theorem blk7_eq (c : Dev nD) (t : Fin cfg0.N) : blk7 m c t = w2Arr m c := whole_block7 (w2Arr m c) t

theorem whole_block8 (X : Vec Ideal S1x40 .f32) (t : Fin cfg0.N) : ((cfg0.win 8).blk t).view.read (Elt Ideal) X = X := by
  obtain ⟨-, -, -, -, -, -, -, -, -, -, -, -, -, -, -, -, -, -, e0, e1⟩ := index_facts t
  funext y
  show X (((cfg0.win 8).blk t).view.emb y) = X y
  congr 1; funext a; apply Fin.ext
  match a with
  | ⟨0, _⟩ => show win0_8.index t (0 : Fin 2) * 1 + 1 * (y 0).val = (y 0).val; omega
  | ⟨1, _⟩ => show win0_8.index t (1 : Fin 2) * 40 + 1 * (y 1).val = (y 1).val; omega

theorem blk8_eq (c : Dev nD) (t : Fin cfg0.N) : blk8 m c t = b2Row m c := whole_block8 (b2Row m c) t

/-- Row p of point t's row tile is row (row block index · 5000 + p) of the array the window stages, for any such array. -/
theorem tile_row (X : Vec Ideal S100000x64 .f32) (t : Fin cfg0.N) (p : Fin 5000) (j : Fin 64)
    (hr : win0_9.index t (0 : Fin 2) * 5000 + p.val < 100000) :
    ((cfg0.win 0).blk t).view.read (Elt Ideal) X (ix2 p j)
      = X (ix2 (⟨win0_9.index t (0 : Fin 2) * 5000 + p.val, hr⟩ : Fin 100000) j) := by
  obtain ⟨e0, e1, -⟩ := index_facts t
  show X (((cfg0.win 0).blk t).view.emb (ix2 p j)) = _
  congr 1; funext a; apply Fin.ext
  match a with
  | ⟨0, _⟩ => show win0_0.index t (0 : Fin 2) * 5000 + 1 * p.val = win0_9.index t (0 : Fin 2) * 5000 + p.val; omega
  | ⟨1, _⟩ => show win0_0.index t (1 : Fin 2) * 64 + 1 * j.val = j.val; omega

/-- Entry (p, q) of point t's output tile is entry (row block index · 5000 + p, q) of the output array. -/
theorem tile_out (t : Fin cfg0.N) (p : Fin 5000) (q : Fin 40)
    (hr : win0_9.index t (0 : Fin 2) * 5000 + p.val < 100000) :
    ((cfg0.win 9).blk t).view.emb (ix2 p q) = ix2 (⟨win0_9.index t (0 : Fin 2) * 5000 + p.val, hr⟩ : Fin 100000) q := by
  obtain ⟨-, -, e2, -⟩ := index_facts t
  funext a; apply Fin.ext
  match a with
  | ⟨0, _⟩ => show win0_9.index t (0 : Fin 2) * 5000 + 1 * p.val = win0_9.index t (0 : Fin 2) * 5000 + p.val; omega
  | ⟨1, _⟩ => show win0_9.index t (1 : Fin 2) * 40 + 1 * q.val = q.val; omega

/-! ## What a point writes back -/

/-- Point t writes back block t of `dense` of the whole arrays: row p of its tile is row (block index · 5000 + p) of the
    propagated array, and the output row is that same row. -/
theorem flushed_eq (c : Dev nD) (t : Fin cfg0.N) :
    (dats m 0 c).flushed 9 t = ((cfg0.win 9).blk t).view.read (Elt Ideal) (out m c) := by
  rw [Cert.KernelIdeal.Value.flushed9]
  unfold out0_9
  rw [View.canon_unit_zero origin]
  simp only [View.ld_unit_zero (S := S5000x64) origin, View.ld_unit_zero (S := S64x64) origin,
    View.ld_unit_zero (S := S1x64) origin, View.ld_unit_zero (S := S64x40) origin, View.ld_unit_zero (S := S1x40) origin]
  funext j
  obtain ⟨p, q, rfl⟩ : ∃ (p : Fin 5000) (q : Fin 40), j = ix2 p q := ⟨j 0, j 1, eq_ix2 j⟩
  show k0_pay1 (F := Ideal) (k0_pay2 (blk8 m c t))
      (k0_pay3 (blk0 m c t) (blk1 m c t) (blk2 m c t) (blk3 m c t) (blk4 m c t) (blk5 m c t) (blk6 m c t) (blk7 m c t)) (ix2 p q)
    = out m c (((cfg0.win 9).blk t).view.emb (ix2 p q))
  rw [Cert.KernelIdeal.Tile.store_apply, blk1_eq, blk2_eq, blk3_eq, blk4_eq, blk5_eq, blk6_eq, blk7_eq, blk8_eq]
  obtain ⟨-, -, -, e3, -⟩ := index_facts t
  have hp : p.val < 5000 := p.isLt
  have hr : win0_9.index t (0 : Fin 2) * 5000 + p.val < 100000 := by omega
  rw [tile_out t p q hr]
  exact dense_row (blk0 m c t) (hArr m c) _ _ _ _ _ _ _ _ p ⟨win0_9.index t (0 : Fin 2) * 5000 + p.val, hr⟩
    (fun j => tile_row (hArr m c) t p j hr) q

/-! ## The blocks cover the output -/

theorem mem_blk (t : Fin cfg0.N) (i : S100000x40.Idx) :
    i ∈ ((cfg0.win 9).blk t).view.set ↔ ∀ a : Fin 2, win0_9.index t a * S5000x40.size a ≤ (i a).val
      ∧ (i a).val < win0_9.index t a * S5000x40.size a + S5000x40.size a := by
  show i ∈ ((View.whole main_v62).slice (win0_9.rect t)).set ↔ _
  rw [View.set_slice_whole, Rect.mem_set_unit]
  exact Iff.rfl

/-- Row r of the output lies in the block of the point whose row block index is r / 5000. -/
theorem covered (i : S100000x40.Idx) :
    ∃ t : Fin cfg0.N, (cfg0.win 9).flush t = true ∧ i ∈ ((cfg0.win 9).blk t).view.set := by
  have hi0 : (i 0).val < 100000 := (i 0).isLt
  have hi1 : (i 1).val < 40 := (i 1).isLt
  obtain ⟨t, ht⟩ := index_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 40 ≤ (i 1).val ∧ (i 1).val < win0_9.index t (1 : Fin 2) * 40 + 40; omega

/-- After the run the output array is the dense tail of the arrays the region found. -/
theorem final (c : Dev nD) : (dats m 0 c).arrAt 9 cfg0.N = out m c :=
  (dats m 0 c).arrAt_eq_of_cover 9 (out m c) (fun t _ => flushed_eq m c t) covered

/-- The kernel's run with its result named. -/
theorem run : θ_run defs (onTc (τ := τ) (main (F := Ideal))) ⟨m, fun _ => 0, ρ⟩ fun r => ∀ c : Dev nD,
      r.2.mem ((c : Thread nD τ).loc main_v62) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.Whole

end
-- ==== Proof.KernelHost.lean ====
/-
  The host side of the kernel's program. Before the region, @main does what the reference does: the two hops of
  normalised neighbourhood sums over the edge list (self-loops appended, degrees counted by a scatter of ones, each edge
  weighted by the reciprocal square roots of its end points' degrees). Operation for operation it is the reference's
  text, so the array the row window stages is the reference's propagated array of the same arguments; nothing here looks
  inside it. The only other host operations reshape each per-feature vector [64] (and the last bias [40]) to a row
  [1, 64] ([1, 40]); a row read at column k is the vector's entry k.
-/
import proofs.«107091_j4501125726313_1_alg».proof.Proof.KernelWhole
import proofs.«107091_j4501125726313_1_alg».proof.Proof.RefReadP
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx SgcDense

/-- A vector of length C recast as a 1×C row, read at column k, is the vector's entry k. -/
theorem cast_row_apply {α : Type} {C : ℕ} (x : (⟨1, ![C]⟩ : Shape).Idx → α)
    (h : (⟨1, ![C]⟩ : Shape).ShapeCasts ⟨2, ![1, C]⟩) (k : Fin C) :
    shapeCast (⟨2, ![1, C]⟩ : Shape) x h (ix2 0 k) = x (ix1 k) :=
  shapeCast_apply x h (ix2 0 k) (ix1 k) (by
    rw [Shape.rowMajor_val_one, Shape.rowMajor_val_two]
    show k.val = 0 * C + k.val
    omega)

section
variable {F : FTy → Type} [FloatOps F] (m : (ℓ : Loc nD τ sig) → Buf (Elt F) ℓ)

/-- The array the row window stages is the reference's propagated array of the same two arguments. -/
theorem propagated_eq (c : Dev nD) :
    (V m c main_v55 : S100000x64.Idx → Elt F .f32)
      = Cert.ReferenceIdeal.ReadP.val_main_v55 (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  rfl

theorem b1Row_cast (c : Dev nD) :
    (V m c main_v56 : S1x64.Idx → Elt F .f32) = shapeCast S1x64 (m ((c : Thread nD τ).loc main_arg3)) shapeCasts_S64_S1x64 := by
  dsimp only [V]
  simp only [hostOps0, hostOps0_1, hostOps0_2, List.flatten_cons, List.flatten_nil, List.append_nil, List.cons_append,
    List.nil_append]
  after_results_simp
  rfl

theorem gRow_cast (c : Dev nD) :
    (V m c main_v57 : S1x64.Idx → Elt F .f32) = shapeCast S1x64 (m ((c : Thread nD τ).loc main_arg4)) shapeCasts_S64_S1x64 := by
  dsimp only [V]
  simp only [hostOps0, hostOps0_1, hostOps0_2, List.flatten_cons, List.flatten_nil, List.append_nil, List.cons_append,
    List.nil_append]
  after_results_simp
  rfl

theorem beRow_cast (c : Dev nD) :
    (V m c main_v58 : S1x64.Idx → Elt F .f32) = shapeCast S1x64 (m ((c : Thread nD τ).loc main_arg5)) shapeCasts_S64_S1x64 := by
  dsimp only [V]
  simp only [hostOps0, hostOps0_1, hostOps0_2, List.flatten_cons, List.flatten_nil, List.append_nil, List.cons_append,
    List.nil_append]
  after_results_simp
  rfl

theorem muRow_cast (c : Dev nD) :
    (V m c main_v59 : S1x64.Idx → Elt F .f32) = shapeCast S1x64 (m ((c : Thread nD τ).loc main_arg6)) shapeCasts_S64_S1x64 := by
  dsimp only [V]
  simp only [hostOps0, hostOps0_1, hostOps0_2, List.flatten_cons, List.flatten_nil, List.append_nil, List.cons_append,
    List.nil_append]
  after_results_simp
  rfl

theorem vaRow_cast (c : Dev nD) :
    (V m c main_v60 : S1x64.Idx → Elt F .f32) = shapeCast S1x64 (m ((c : Thread nD τ).loc main_arg7)) shapeCasts_S64_S1x64 := by
  dsimp only [V]
  simp only [hostOps0, hostOps0_1, hostOps0_2, List.flatten_cons, List.flatten_nil, List.append_nil, List.cons_append,
    List.nil_append]
  after_results_simp
  rfl

theorem b2Row_cast (c : Dev nD) :
    (V m c main_v61 : S1x40.Idx → Elt F .f32) = shapeCast S1x40 (m ((c : Thread nD τ).loc main_arg9)) shapeCasts_S40_S1x40 := by
  dsimp only [V]
  simp only [hostOps0, hostOps0_1, hostOps0_2, List.flatten_cons, List.flatten_nil, List.append_nil, List.cons_append,
    List.nil_append]
  after_results_simp
  rfl

end

/-! ## The kernel's output over the launched arguments -/

variable (m : (ℓ : Loc nD τ sig) → Buf (Elt Ideal) ℓ)

open Cert.KernelIdeal.Whole in
/-- The kernel's output array is the dense tail of the reference's propagated array and the launched parameters. -/
theorem out_eq (c : Dev nD) :
    out m c = dense
      (Cert.ReferenceIdeal.ReadP.val_main_v55 (F := Ideal) (m ((c : Thread nD τ).loc main_arg0)) (m ((c : Thread nD τ).loc main_arg1)))
      (m ((c : Thread nD τ).loc main_arg2))
      (vecOf (m ((c : Thread nD τ).loc main_arg3) : S64.Idx → EReal)) (vecOf (m ((c : Thread nD τ).loc main_arg4) : S64.Idx → EReal))
      (vecOf (m ((c : Thread nD τ).loc main_arg5) : S64.Idx → EReal)) (vecOf (m ((c : Thread nD τ).loc main_arg6) : S64.Idx → EReal))
      (vecOf (m ((c : Thread nD τ).loc main_arg7) : S64.Idx → EReal))
      (m ((c : Thread nD τ).loc main_arg8)) (vecOf (m ((c : Thread nD τ).loc main_arg9) : S40.Idx → EReal)) := by
  have r1 : rowOf (b1Row m c) = vecOf (m ((c : Thread nD τ).loc main_arg3) : S64.Idx → EReal) := funext fun k => by
    show (V m c main_v56 : S1x64.Idx → EReal) (ix2 0 k) = _
    rw [b1Row_cast]; exact cast_row_apply _ _ k
  have r2 : rowOf (gRow m c) = vecOf (m ((c : Thread nD τ).loc main_arg4) : S64.Idx → EReal) := funext fun k => by
    show (V m c main_v57 : S1x64.Idx → EReal) (ix2 0 k) = _
    rw [gRow_cast]; exact cast_row_apply _ _ k
  have r3 : rowOf (beRow m c) = vecOf (m ((c : Thread nD τ).loc main_arg5) : S64.Idx → EReal) := funext fun k => by
    show (V m c main_v58 : S1x64.Idx → EReal) (ix2 0 k) = _
    rw [beRow_cast]; exact cast_row_apply _ _ k
  have r4 : rowOf (muRow m c) = vecOf (m ((c : Thread nD τ).loc main_arg6) : S64.Idx → EReal) := funext fun k => by
    show (V m c main_v59 : S1x64.Idx → EReal) (ix2 0 k) = _
    rw [muRow_cast]; exact cast_row_apply _ _ k
  have r5 : rowOf (vaRow m c) = vecOf (m ((c : Thread nD τ).loc main_arg7) : S64.Idx → EReal) := funext fun k => by
    show (V m c main_v60 : S1x64.Idx → EReal) (ix2 0 k) = _
    rw [vaRow_cast]; exact cast_row_apply _ _ k
  have r6 : rowOf (b2Row m c) = vecOf (m ((c : Thread nD τ).loc main_arg9) : S40.Idx → EReal) := funext fun k => by
    show (V m c main_v61 : S1x40.Idx → EReal) (ix2 0 k) = _
    rw [b2Row_cast]; exact cast_row_apply _ _ k
  have a2 : w1Arr m c = m ((c : Thread nD τ).loc main_arg2) := V_main_arg2 m c
  have a8 : w2Arr m c = m ((c : Thread nD τ).loc main_arg8) := V_main_arg8 m c
  have a0 : hArr m c = Cert.ReferenceIdeal.ReadP.val_main_v55 (F := Ideal) (m ((c : Thread nD τ).loc main_arg0)) (m ((c : Thread nD τ).loc main_arg1)) :=
    propagated_eq m c
  show dense (hArr m c) (w1Arr m c) (rowOf (b1Row m c)) (rowOf (gRow m c)) (rowOf (beRow m c)) (rowOf (muRow m c))
    (rowOf (vaRow m c)) (w2Arr m c) (rowOf (b2Row m c)) = _
  rw [r1, r2, r3, r4, r5, r6, a2, a8, a0]

end Cert.KernelIdeal.HostSide

end
-- ==== Proof.lean ====
/-
  A simplified graph convolution followed by a small dense network, kernel against reference, over the extended reals.

  Both programs first propagate the node features over the graph twice (self-loops added, symmetric degree
  normalisation) with the same host operations; call the result h, an array of 100000 rows and 64 columns. The
  reference then computes on the host

      relu( g · ((h · W1 + b1) − mu) · rsqrt(va + ε) + be ) · W2 + b2 ,

  and the kernel computes the same expression tile by tile: 20 tiles of 5000 rows, each tile's two products accumulated
  into zero with their operands narrowed (the identity on the extended reals), every per-feature vector passed as a
  1×64 row. Entry (r, c) of either result is  Σ_k hidden(r, k) · W2(k, c) + b2(c)  with hidden(r, k) a function of row r
  of h alone (Proof/DenseSpec.lean), so the tiling changes nothing: no algebraic law is needed beyond reading both
  sides at an index, and the precondition is never opened.

  Proof/KernelTile.lean reads one tile's stored value; Proof/KernelWhole.lean carries the tiles to the whole output
  array; Proof/KernelHost.lean identifies the arrays the kernel's region finds (the propagated array with the
  reference's, each parameter row with its vector); Proof/RefDense.lean reads the reference's dense tail. The
  idealisation rewrote no operation, so `preserves` has nothing to state.
-/
import proofs.«107091_j4501125726313_1_alg».proof.Defs
import proofs.«107091_j4501125726313_1_alg».proof.Proof.Gen.Kernel
import proofs.«107091_j4501125726313_1_alg».proof.Proof.Gen.Kernel.Skeleton
import proofs.«107091_j4501125726313_1_alg».proof.Proof.Gen.Kernel.Launch
import proofs.«107091_j4501125726313_1_alg».proof.Proof.Gen.Kernel.Points
import proofs.«107091_j4501125726313_1_alg».proof.Proof.Gen.Kernel.Frame
import proofs.«107091_j4501125726313_1_alg».proof.Proof.Gen.KernelIdeal
import proofs.«107091_j4501125726313_1_alg».proof.Proof.Gen.KernelIdeal.Skeleton
import proofs.«107091_j4501125726313_1_alg».proof.Proof.Gen.KernelIdeal.Launch
import proofs.«107091_j4501125726313_1_alg».proof.Proof.Gen.KernelIdeal.Points
import proofs.«107091_j4501125726313_1_alg».proof.Proof.Gen.KernelIdeal.Frame
import proofs.«107091_j4501125726313_1_alg».proof.Proof.Gen.KernelIdeal.Value
import proofs.«107091_j4501125726313_1_alg».proof.Proof.Gen.ReferenceIdeal
import proofs.«107091_j4501125726313_1_alg».proof.Proof.Gen.Pre_finite_inputs
import proofs.«107091_j4501125726313_1_alg».proof.Proof.RefDense
import proofs.«107091_j4501125726313_1_alg».proof.Proof.KernelHost
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the dense tail of the same propagated array and the same parameters. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v79_eq, Cert.ReferenceIdeal.RefDense.result_eq, h0, h1, h2, h3, h4, h5, h6, h7,
    h8, h9]
  exact (Cert.KernelIdeal.HostSide.out_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
